-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x256 .f32) (main_arg1 : FVec F S4096x256 .f32) (main_arg2 : FVec F S4096x256 .f32) (main_arg3 : FVec F S1x4096 .f32) (main_arg4 : FVec F S1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_v13 main_v16
-- ==== Kernel.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S_ : Shape := ⟨0, ![]⟩
abbrev S4096 : Shape := ⟨1, ![4096]⟩
abbrev S1x1 : Shape := ⟨2, ![1, 1]⟩
abbrev S16384x1 : Shape := ⟨2, ![16384, 1]⟩
abbrev S1024x256 : Shape := ⟨2, ![1024, 256]⟩
abbrev S1024x1 : Shape := ⟨2, ![1024, 1]⟩
abbrev S512x256 : Shape := ⟨2, ![512, 256]⟩
abbrev S1x512 : Shape := ⟨2, ![1, 512]⟩
abbrev S256x512 : Shape := ⟨2, ![256, 512]⟩
abbrev S1024x512 : Shape := ⟨2, ![1024, 512]⟩
abbrev S1024 : Shape := ⟨1, ![1024]⟩

abbrev nBuf : Space → Nat
  | .hbm => 20
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S4096x256, .f32⟩
  | .hbm, ⟨3, _⟩ => ⟨S1x4096, .f32⟩
  | .hbm, ⟨4, _⟩ => ⟨S1, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S1x1, .f32⟩
  | .hbm, ⟨19, _⟩ => ⟨S16384x1, .f32⟩
  | .local _ .vmem, ⟨0, _⟩ => ⟨S1024x256, .f32⟩
  | .local _ .vmem, ⟨1, _⟩ => ⟨S1024x256, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S1x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v16 : BitVec 32 := Scalar.muli arg9 c512_i32
  v16
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v16 : BitVec 32 := Scalar.muli arg9 c512_i32
  let v17 : BitVec 32 := v16
  let v18 : Index := Scalar.indexCast v17
  let c0_10 : Index := 0#32
  ![v18.toNat, 0]
def k0_off2 (k0_t1 : Fin k0_t1_loop.trips) : Fin 2 → Nat :=
  let c0_12 : Index := 0#32
  let c0_i32 : BitVec 32 := 0#32
  let c1_i32 : BitVec 32 := 1#32
  let arg9 : BitVec 32 := Scf.iv c0_i32 c1_i32 k0_t1
  let c512_i32 : BitVec 32 := 512#32
  let v16 : BitVec 32 := Scalar.muli arg9 c512_i32
  let v17 : BitVec 32 := v16
  let v26 : Index := Scalar.indexCast v17
  ![0, v26.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096x256 : S_.BroadcastsInDim S4096x256 (![] : Fin 0 → Fin S4096x256.rank)
  reducesTo_S4096x256_S4096_d1 : S4096x256.ReducesTo [1] S4096
  h_S_ : 0 < S_.numel
  shapeCasts_S4096_S1x4096 : S4096.ShapeCasts S1x4096
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S512x256 : 0 < S512x256.numel
  shapeCasts_S512x256_S512x256 : S512x256.ShapeCasts S512x256
  h_S1x512 : 0 < S1x512.numel
  shapeCasts_S1x512_S1x512 : S1x512.ShapeCasts S1x512
  transposes_S512x256_p1_0_S256x512 : S512x256.Transposes [1, 0] S256x512
  broadcasts_S1x512_S1024x512 : S1x512.Broadcasts S1024x512
  reduces_S1024x512_S1024 : S1024x512.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x256_S256x512_S1024x512_1_0_0_1_n_n_wf : DotDims.WF S1024x256 S256x512 S1024x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S4096x256.size a
  k0_off2_inb : ∀ k0_t1 : Fin k0_t1_loop.trips, ∀ a, (k0_off2 k0_t1) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S16384x1.size a
  hwx0_6 : ∀ i : grid0.Coords, EltTy.bits .f32 = 32 ∨ (Rect.block (s := S16384x1) S1024x1.size (cc0_transform_6 i) (hinb0_6 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x256 : Shape := ⟨2, ![16384, 256]⟩
abbrev S4096x256 : Shape := ⟨2, ![4096, 256]⟩
abbrev S1x4096 : Shape := ⟨2, ![1, 4096]⟩
abbrev S1 : Shape := ⟨1, ![1]⟩
abbrev S_ : Shape := ⟨0, ![]⟩
abbrev S16384x4096 : Shape := ⟨2, ![16384, 4096]⟩
abbrev S4096 : Shape := ⟨1, ![4096]⟩
abbrev S4096x1 : Shape := ⟨2, ![4096, 1]⟩
abbrev S16384x1 : Shape := ⟨2, ![16384, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S4096x256, .f32⟩
  | .hbm, ⟨3, _⟩ => ⟨S1x4096, .f32⟩
  | .hbm, ⟨4, _⟩ => ⟨S1, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S16384x256, .f32⟩
  | .hbm, ⟨13, _⟩ => ⟨S16384x4096, .f32⟩
  | .hbm, ⟨14, _⟩ => ⟨S4096x256, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S4096x1, .f32⟩
  | .hbm, ⟨30, _⟩ => ⟨S16384x1, .f32⟩
  | .hbm, ⟨31, _⟩ => ⟨S1x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S_S16384x4096 : S_.BroadcastsInDim S16384x4096 (![] : Fin 0 → Fin S16384x4096.rank)
  reducesTo_S4096x256_S4096_d1 : S4096x256.ReducesTo [1] S4096
  h_S_ : 0 < S_.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S1x4096_S4096x1_1_0 : S1x4096.Transposes [1, 0] S4096x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x256_S4096x256_S16384x4096_1_1_0_0_n_n_wf : DotDims.WF S16384x256 S4096x256 S16384x4096 [1] [1] [0] [0] [] []
  dot_S16384x4096_S4096x1_S16384x1_1_0_0_1_n_n_wf : DotDims.WF S16384x4096 S4096x1 S16384x1 [1] [0] [0] [1] [] []

variable [Facts₀]

def dot_S16384x256_S4096x256_S16384x4096_1_1_0_0_n_n : DotDims S16384x256 S4096x256 S16384x4096 where
  lhsContracting := [1]
  rhsContracting := [1]
  lhsNonContracting := [0]
  rhsNonContracting := [0]
  lhsBatch := []
  rhsBatch := []
  wf := dot_S16384x256_S4096x256_S16384x4096_1_1_0_0_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.KRun.lean ====
/-
  The body of the kernel at one grid point, as a function of its input blocks.

  The body zeroes a column accumulator, sweeps the 4096 centres in 8 chunks of 512, adding each
  chunk's partial class score to the accumulator, and finally stores the logistic function of
  accumulator plus bias.  Here the stores the body's run found are read back: the accumulator
  after `k` chunks is the `k`-fold recurrence `accum`, and the block the point writes back is the
  final payload of `accum 8` and the bias block.
-/
import proofs.«181055_j16466904613581_1_alg».proof.Proof.Gen.KernelIdeal.Frame
import Idealize.ShloMosaic.Lib.Pipeline.Value
import Idealize.ShloMosaic.Lib.Writes

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop over the chunks of centres makes 8 trips. -/
theorem trips_eq : k0_t1_loop.trips = 8 := by decide

/-- The accumulator's rectangle starts at the origin. -/
theorem hz : (![0, 0] : Fin S1024x1.rank → Nat) = fun _ => 0 := by
  funext a; match a with | ⟨0, _⟩ => rfl | ⟨1, _⟩ => rfl
theorem hz0 : (![0, 0] : Fin S1024x256.rank → Nat) = fun _ => 0 := by
  funext a; match a with | ⟨0, _⟩ => rfl | ⟨1, _⟩ => rfl
theorem hz5 : (![0, 0] : Fin S1x1.rank → Nat) = fun _ => 0 := by
  funext a; match a with | ⟨0, _⟩ => rfl | ⟨1, _⟩ => rfl

/-- The accumulator column after `k` chunks: zero, then each chunk's update of what the chunks
    before left, the chunk's rows of the two factor arrays and its columns of the two row vectors
    read at the chunk's offset. -/
def accum (x0 : Vec F S1024x256 .f32) (x1 x2 : Vec F S4096x256 .f32) (x3 x4 : Vec F S1x4096 .f32) : ℕ → Vec F S1024x1 .f32
  | 0 => k0_pay1
  | k + 1 =>
    if h : k < k0_t1_loop.trips then
      k0_pay2 x0
        (View.ld x1 (Rect.unit (s := S4096x256) (k0_off1 ⟨k, h⟩) S512x256.size (k0_off1_inb ⟨k, h⟩)))
        (View.ld x2 (Rect.unit (s := S4096x256) (k0_off1 ⟨k, h⟩) S512x256.size (k0_off1_inb ⟨k, h⟩)))
        (View.ld x3 (Rect.unit (s := S1x4096) (k0_off2 ⟨k, h⟩) S1x512.size (k0_off2_inb ⟨k, h⟩)))
        (View.ld x4 (Rect.unit (s := S1x4096) (k0_off2 ⟨k, h⟩) S1x512.size (k0_off2_inb ⟨k, h⟩)))
        (accum x0 x1 x2 x3 x4 k)
    else accum x0 x1 x2 x3 x4 k

section Run

variable (c : Dev nD) (i : grid0.Coords) (arg1 : Memref sig .tc .vmem S1024x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole) (x0 : Vec F S1024x256 .f32) (x1 x2 : Vec F S4096x256 .f32) (x3 x4 : Vec F S1x4096 .f32) (x5 : Vec F S1x1 .f32)

/-- One chunk's store: the update of the accumulator found, at the chunk's offsets. -/
theorem trip_piece (𝒱 : Variants) (bd : Option 𝒱.V) (v0 : Vec F S1024x256 .f32)
    (X2 : BufTy.Contents (Elt F) arg2.view.ty) (X3 : BufTy.Contents (Elt F) arg3.view.ty)
    (X4 : BufTy.Contents (Elt F) arg4.view.ty) (X5 : BufTy.Contents (Elt F) arg5.view.ty)
    (k : Fin k0_t1_loop.trips) (f : BufTy.Contents (Elt F) arg8.view.ty) :
    tripL_k0_t1 (F := F) 𝒱 c bd i arg1 harg1 arg2 harg2 arg3 harg3 arg4 harg4 arg5 harg5 arg6 harg6 arg7 harg7 arg8 harg8 v0 X2 X3 X4 X5 k f
      = [⟨Rect.unit (s := S1024x1) ![0, 0] S1024x1.size inb_S1024x1_S1024x1_0_0,
          k0_pay2 v0
            (View.readAt (Elt F) arg2.view (Rect.unit (s := S4096x256) (k0_off1 k) S512x256.size (k0_off1_inb k)).toLoadRect X2)
            (View.readAt (Elt F) arg3.view (Rect.unit (s := S4096x256) (k0_off1 k) S512x256.size (k0_off1_inb k)).toLoadRect X3)
            (View.readAt (Elt F) arg4.view (Rect.unit (s := S1x4096) (k0_off2 k) S1x512.size (k0_off2_inb k)).toLoadRect X4)
            (View.readAt (Elt F) arg5.view (Rect.unit (s := S1x4096) (k0_off2 k) S1x512.size (k0_off2_inb k)).toLoadRect X5)
            (View.readAt (Elt F) arg8.view (Rect.unit (s := S1024x1) ![0, 0] S1024x1.size inb_S1024x1_S1024x1_0_0).toLoadRect f)⟩] := by
  unfold tripL_k0_t1 trip_k0_t1
  rfl

/-- A load of the whole accumulator reads its contents. -/
theorem readAt_whole8 (f : BufTy.Contents (Elt F) arg8.view.ty) :
    View.readAt (Elt F) arg8.view (Rect.unit (s := S1024x1) ![0, 0] S1024x1.size inb_S1024x1_S1024x1_0_0).toLoadRect f
      = arg8.view.read (Elt F) f := by
  rw [View.readAt_eq_ld]; exact View.ld_unit_zero hz _ _

/-- After the zeroing store and the first `k` chunks' stores the accumulator holds `accum k`: each
    chunk's store covers the whole column, and its payload reads the column the chunks before
    left. -/
theorem acc_pieces (v0 : Vec F S1024x256 .f32) (k : ℕ) (hk : k ≤ k0_t1_loop.trips) :
    arg8.view.read (Elt F) (arg8.view.writes (Elt F) arg8.view.junk
      (pb_k0_t1 (F := F) Variants.none c none i arg1 harg1 arg2 harg2 arg3 harg3 arg4 harg4 arg5 harg5 arg6 harg6 arg7 harg7 arg8 harg8 v0 (harg2.unread x1) (harg3.unread x2) (harg4.unread x3) (harg5.unread x4)
          (arg8.view.writes (Elt F) arg8.view.junk [⟨Rect.unit (s := S1024x1) ![0, 0] S1024x1.size inb_S1024x1_S1024x1_0_0, k0_pay1⟩]) k
        ++ [⟨Rect.unit (s := S1024x1) ![0, 0] S1024x1.size inb_S1024x1_S1024x1_0_0, k0_pay1⟩]))
      = accum v0 x1 x2 x3 x4 k := by
  induction k with
  | zero =>
    rw [show pb_k0_t1 (F := F) Variants.none c none i arg1 harg1 arg2 harg2 arg3 harg3 arg4 harg4 arg5 harg5 arg6 harg6 arg7 harg7 arg8 harg8 v0 (harg2.unread x1) (harg3.unread x2) (harg4.unread x3) (harg5.unread x4)
          (arg8.view.writes (Elt F) arg8.view.junk [⟨Rect.unit (s := S1024x1) ![0, 0] S1024x1.size inb_S1024x1_S1024x1_0_0, k0_pay1⟩]) 0 = [] from rfl,
      List.nil_append, View.read_writes_junk_eq_canon, View.canon_unit_zero hz]
    rfl
  | succ k ih =>
    have h : k < k0_t1_loop.trips := hk
    have hs := pb_k0_t1_succ (F := F) Variants.none c none i arg1 harg1 arg2 harg2 arg3 harg3 arg4 harg4 arg5 harg5 arg6 harg6 arg7 harg7 arg8 harg8 v0 (harg2.unread x1) (harg3.unread x2) (harg4.unread x3) (harg5.unread x4)
          (arg8.view.writes (Elt F) arg8.view.junk [⟨Rect.unit (s := S1024x1) ![0, 0] S1024x1.size inb_S1024x1_S1024x1_0_0, k0_pay1⟩]) ⟨k, h⟩
    rw [show (⟨k, h⟩ : Fin k0_t1_loop.trips).val + 1 = k + 1 from rfl] at hs
    rw [hs, trip_piece, List.singleton_append, List.cons_append, View.read_writes_junk_eq_canon, View.canon_cons_unit_zero hz]
    rw [accum, dif_pos h]
    rw [View.readAt_eq_ld, harg2.read_unread, View.readAt_eq_ld, harg3.read_unread, View.readAt_eq_ld, harg4.read_unread,
      View.readAt_eq_ld, harg5.read_unread, readAt_whole8, ← View.writes_append, ih (Nat.le_of_lt h)]

/-- The one store of the run into the output block: the final payload of the accumulator the
    loop left and the bias block. -/
theorem run_pieces :
    (kernelRun0_A c i arg1 harg1 arg2 harg2 arg3 harg3 arg4 harg4 arg5 harg5 arg6 harg6 arg7 harg7 arg8 harg8 x0 x1 x2 x3 x4 x5).1
      = [⟨Rect.unit (s := S1024x1) ![0, 0] S1024x1.size inb_S1024x1_S1024x1_0_0,
          k0_pay3
            (View.readAt (Elt F) arg8.view (Rect.unit (s := S1024x1) ![0, 0] S1024x1.size inb_S1024x1_S1024x1_0_0).toLoadRect
              (arg8.view.writes (Elt F) arg8.view.junk
                (pb_k0_t1 (F := F) Variants.none c none i arg1 harg1 arg2 harg2 arg3 harg3 arg4 harg4 arg5 harg5 arg6 harg6 arg7 harg7 arg8 harg8
                    (View.readAt (Elt F) arg1.view (Rect.unit (s := S1024x256) ![0, 0] S1024x256.size inb_S1024x256_S1024x256_0_0).toLoadRect (harg1.unread x0))
                    (harg2.unread x1) (harg3.unread x2) (harg4.unread x3) (harg5.unread x4)
                    (arg8.view.writes (Elt F) arg8.view.junk [⟨Rect.unit (s := S1024x1) ![0, 0] S1024x1.size inb_S1024x1_S1024x1_0_0, k0_pay1⟩]) k0_t1_loop.trips
                  ++ [⟨Rect.unit (s := S1024x1) ![0, 0] S1024x1.size inb_S1024x1_S1024x1_0_0, k0_pay1⟩])))
            (View.readAt (Elt F) arg6.view (Rect.unit (s := S1x1) ![0, 0] S1x1.size inb_S1x1_S1x1_0_0).toLoadRect (harg6.unread x5))⟩] := by
  unfold kernelRun0_A
  dsimp only
  sl_unfold_words
  rfl

/-- THE BODY'S RESULT at one grid point: the block written back is the logistic payload of the
    accumulator after all 8 chunks and the bias block. -/
theorem out_eq :
    out0_A_6 c i arg1 harg1 arg2 harg2 arg3 harg3 arg4 harg4 arg5 harg5 arg6 harg6 arg7 harg7 arg8 harg8 x0 x1 x2 x3 x4 x5 = k0_pay3 (accum x0 x1 x2 x3 x4 k0_t1_loop.trips) x5 := by
  unfold out0_A_6
  rw [View.read_writes_junk_eq_canon, run_pieces, View.canon_unit_zero hz, readAt_whole8, acc_pieces _ _ _ _ _ _ _ _ _ _ _ _ _ _ _ _ _ _ _ _ _ _ _ _ le_rfl,
    View.readAt_eq_ld, harg1.read_unread, View.ld_unit_zero hz0, View.readAt_eq_ld, harg6.read_unread, View.ld_unit_zero hz5]

end Run

end Cert.KernelIdeal.KRun

end
-- ==== Proof.KBlocks.lean ====
/-
  The kernel's input blocks as parts of the arrays the region finds.

  The grid has 16 points; point `t` is handed rows `1024 t … 1024 t + 1023` of the samples, and the
  whole of each of the other five operands (the two factor arrays, the row of squared-centre
  sums, the weights and the bias), whose block index never moves.  Inside the body, chunk `k` of
  the sweep over the centres reads rows `512 k … 512 k + 511` of the factor arrays and the same
  columns of the two row vectors.
-/
import proofs.«181055_j16466904613581_1_alg».proof.Proof.Gen.KernelIdeal.Frame
import Idealize.ShloMosaic.Lib.Pipeline.Value
import Idealize.ShloMosaic.Lib.ValueIdx

set_option maxRecDepth 16384

noncomputable section

namespace Cert.KernelIdeal.KBlocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
variable (m : (ℓ : Loc nD τ sig) → Buf (Elt F) ℓ)

/-! ## The chunk offsets inside the body -/

/-- Chunk `k` of the factor arrays starts at row `512 k`, column 0. -/
theorem off1_eq : ∀ k : Fin k0_t1_loop.trips, k0_off1 k (0 : Fin 2) = 512 * k.val ∧ k0_off1 k (1 : Fin 2) = 0 := by decide

/-- Chunk `k` of the row vectors starts at row 0, column `512 k`. -/
theorem off2_eq : ∀ k : Fin k0_t1_loop.trips, k0_off2 k (0 : Fin 2) = 0 ∧ k0_off2 k (1 : Fin 2) = 512 * k.val := by decide

/-- A chunk's load of a factor array, at row `j` of the chunk and column `d`, reads row `512 k + j`. -/
theorem ld_rows (X : Vec F S4096x256 .f32) (k : Fin k0_t1_loop.trips) (j : Fin 512) (d : Fin 256) (hj : 512 * k.val + j.val < 4096) :
    View.ld X (Rect.unit (s := S4096x256) (k0_off1 k) S512x256.size (k0_off1_inb k)) (ix2 j d)
      = X (ix2 ⟨512 * k.val + j.val, hj⟩ d) := by
  show X _ = X _
  refine congrArg X (funext fun a => Fin.ext ?_)
  match a with
  | ⟨0, _⟩ => show k0_off1 k (0 : Fin 2) + 1 * j.val = 512 * k.val + j.val; rw [(off1_eq k).1]; omega
  | ⟨1, _⟩ => show k0_off1 k (1 : Fin 2) + 1 * d.val = d.val; rw [(off1_eq k).2]; omega

/-- A chunk's load of a row vector, at column `j` of the chunk, reads column `512 k + j`. -/
theorem ld_cols (X : Vec F S1x4096 .f32) (k : Fin k0_t1_loop.trips) (j : Fin 512) (hj : 512 * k.val + j.val < 4096) :
    View.ld X (Rect.unit (s := S1x4096) (k0_off2 k) S1x512.size (k0_off2_inb k)) (ix2 (0 : Fin 1) j)
      = X (ix2 (0 : Fin 1) ⟨512 * k.val + j.val, hj⟩) := by
  show X _ = X _
  refine congrArg X (funext fun a => Fin.ext ?_)
  match a with
  | ⟨0, _⟩ => show k0_off2 k (0 : Fin 2) + 1 * 0 = 0; rw [(off2_eq k).1]
  | ⟨1, _⟩ => show k0_off2 k (1 : Fin 2) + 1 * j.val = 512 * k.val + j.val; rw [(off2_eq k).2]; omega

/-! ## The windows' blocks -/

/-- The printed index maps over the grid: the samples' and the result's block index is the
    point, every other operand's stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point `t`'s block of the samples is rows `1024 t …` of the array. -/
theorem iblk0_apply (c : Dev nD) (t : Fin cfg0.N) (x : S1024x256.Idx) (k : S16384x256.Idx)
    (hk0 : (k 0).val = 1024 * t.val + (x 0).val) (hk1 : (k 1).val = (x 1).val) :
    (iblk m c 0 t : Vec F S1024x256 .f32) x = (V m c main_arg0 : S16384x256.Idx → Elt F .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- Operand 1's block at every point is its whole array. -/
theorem iblk1_eq (c : Dev nD) (t : Fin cfg0.N) : (iblk m c 1 t : Vec F S4096x256 .f32) = V m c main_call0_v4 := by
  obtain ⟨-, -, e0, e1, -⟩ := idx_facts t
  funext x
  unfold iblk
  rw [View.read_apply]
  show V m c main_call0_v4 _ = V m c main_call0_v4 x
  congr 1
  funext a
  apply Fin.ext
  match a with
  | ⟨0, _⟩ => show win0_1.index t (0 : Fin 2) * 4096 + 1 * (x 0).val = (x 0).val; rw [e0]; omega
  | ⟨1, _⟩ => show win0_1.index t (1 : Fin 2) * 256 + 1 * (x 1).val = (x 1).val; rw [e1]; omega

/-- Operand 2's block at every point is its whole array. -/
theorem iblk2_eq (c : Dev nD) (t : Fin cfg0.N) : (iblk m c 2 t : Vec F S4096x256 .f32) = V m c main_call0_v5 := by
  obtain ⟨-, -, -, -, e0, e1, -⟩ := idx_facts t
  funext x
  unfold iblk
  rw [View.read_apply]
  show V m c main_call0_v5 _ = V m c main_call0_v5 x
  congr 1
  funext a
  apply Fin.ext
  match a with
  | ⟨0, _⟩ => show win0_2.index t (0 : Fin 2) * 4096 + 1 * (x 0).val = (x 0).val; rw [e0]; omega
  | ⟨1, _⟩ => show win0_2.index t (1 : Fin 2) * 256 + 1 * (x 1).val = (x 1).val; rw [e1]; omega

/-- Operand 3's block at every point is its whole array. -/
theorem iblk3_eq (c : Dev nD) (t : Fin cfg0.N) : (iblk m c 3 t : Vec F S1x4096 .f32) = V m c main_call0_v9 := by
  obtain ⟨-, -, -, -, -, -, e0, e1, -⟩ := idx_facts t
  funext x
  unfold iblk
  rw [View.read_apply]
  show V m c main_call0_v9 _ = V m c main_call0_v9 x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 4096 + 1 * (x 1).val = (x 1).val; rw [e1]; omega

/-- Operand 4's block at every point is its whole array. -/
theorem iblk4_eq (c : Dev nD) (t : Fin cfg0.N) : (iblk m c 4 t : Vec F S1x4096 .f32) = V m c main_arg3 := by
  obtain ⟨-, -, -, -, -, -, -, -, e0, e1, -⟩ := idx_facts t
  funext x
  unfold iblk
  rw [View.read_apply]
  show V m c main_arg3 _ = V m c main_arg3 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 4096 + 1 * (x 1).val = (x 1).val; rw [e1]; omega

/-- Operand 5's block at every point is its whole array. -/
theorem iblk5_eq (c : Dev nD) (t : Fin cfg0.N) : (iblk m c 5 t : Vec F S1x1 .f32) = V m c main_call0_v10 := by
  obtain ⟨-, -, -, -, -, -, -, -, -, -, e0, e1, -⟩ := idx_facts t
  funext x
  unfold iblk
  rw [View.read_apply]
  show V m c main_call0_v10 _ = V m c main_call0_v10 x
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 1 + 1 * (x 1).val = (x 1).val; rw [e1]; omega

/-! ## What the host operations before the region leave in the arrays the kernel reads -/

/-- The first factor array: `1 / (2 σ σ)`, elementwise, as the host operations compute it. -/
def hostA (σ : Vec F S4096x256 .f32) : Vec F S4096x256 .f32 :=
  Host.divf (broadcastInDim S4096x256 ![] bcast_S_S4096x256 (constant (F := F) S_ .f32 0x3F800000#32))
    (mulf (mulf (broadcastInDim S4096x256 ![] bcast_S_S4096x256 (constant (F := F) S_ .f32 0x40000000#32)) σ) σ)

/-- The row sums of `centres² · A`, before they are laid out as a row. -/
def hostT (ctr σ : Vec F S4096x256 .f32) : Vec F S4096 .f32 :=
  Host.reduceAdd (mulf (mulf ctr ctr) (hostA σ)) (constant (F := F) S_ .f32 0x00000000#32) reducesTo_S4096x256_S4096_d1 h_S_

theorem V_v4 (c : Dev nD) : (V m c main_call0_v4 : Vec F S4096x256 .f32) = hostA (m ((c : Thread nD τ).loc main_arg2)) := by
  dsimp only [V, hostOps0]; after_results; rfl

theorem V_v5 (c : Dev nD) : (V m c main_call0_v5 : Vec F S4096x256 .f32)
    = mulf (m ((c : Thread nD τ).loc main_arg1)) (hostA (m ((c : Thread nD τ).loc main_arg2))) := by
  dsimp only [V, hostOps0]; after_results; rfl

theorem V_v9 (c : Dev nD) : (V m c main_call0_v9 : Vec F S1x4096 .f32)
    = shapeCast S1x4096 (hostT (m ((c : Thread nD τ).loc main_arg1)) (m ((c : Thread nD τ).loc main_arg2))) shapeCasts_S4096_S1x4096 := by
  dsimp only [V, hostOps0]; after_results; rfl

theorem V_v10 (c : Dev nD) : (V m c main_call0_v10 : Vec F S1x1 .f32)
    = shapeCast S1x1 (m ((c : Thread nD τ).loc main_arg4)) shapeCasts_S1_S1x1 := by
  dsimp only [V, hostOps0]; after_results; rfl

end Cert.KernelIdeal.KBlocks

end
-- ==== Proof.Spec.lean ====
/-
  The mathematics of the radial-basis scoring layer, over plain extended-real arrays.

  A sample `n` (a row of `x`, 256 features) is compared with each of 4096 centres.  With
  `A = 1 / (2 σ²)`, `B = centres · A` and `t3 c = Σ_d centres[c,d]² · A[c,d]`, the scaled squared
  distance is expanded as
      dist n c = Σ_d x[n,d]² · A[c,d]  −  2 · Σ_d x[n,d] · B[c,d]  +  t3 c,
  the radial response is `exp (−dist n c)`, the class score is `Σ_c exp (−dist n c) · w c + b`,
  and the result is the logistic function of the score.  Everything is read on the extended
  reals with the exact operations; `A`, `B` and `t3` enter as given arrays, so nothing here
  depends on how they were obtained from `σ` and the centres.
-/
import Idealize.ShloMosaic.PureOps.Ideal
import Idealize.ShloMosaic.Lib.ValueIdx

noncomputable section

namespace Cert.Spec

open Idealize.ShloMosaic Idealize.ShloMosaic.ValueIdx

/-- The samples' shape, the centres' shape, the result's shape. -/
abbrev SX : Shape := ⟨2, ![16384, 256]⟩
abbrev SC : Shape := ⟨2, ![4096, 256]⟩
abbrev SO : Shape := ⟨2, ![16384, 1]⟩

/-- The factor of the cross term, as the float pattern of 2.0 (never evaluated: both programs
    multiply by the same pattern). -/
abbrev two : EReal := Ideal.ofBits .f32 0x40000000#32

/-- The expanded scaled squared distance of sample `n` to centre `c`. -/
def dist (x : SX.Idx → EReal) (A B : SC.Idx → EReal) (t3 : Fin 4096 → EReal) (n : Fin 16384) (c : Fin 4096) : EReal :=
  (∑ d : Fin 256, (x (ix2 n d) * x (ix2 n d)) * A (ix2 c d)) - two * (∑ d : Fin 256, x (ix2 n d) * B (ix2 c d)) + t3 c

/-- One centre's contribution to the class score of sample `n`. -/
def term (x : SX.Idx → EReal) (A B : SC.Idx → EReal) (t3 w : Fin 4096 → EReal) (n : Fin 16384) (c : Fin 4096) : EReal :=
  Ideal.exp (-(dist x A B t3 n c)) * w c

/-- The class score of sample `n` before the bias: the weighted sum of the radial responses. -/
def score (x : SX.Idx → EReal) (A B : SC.Idx → EReal) (t3 w : Fin 4096 → EReal) (n : Fin 16384) : EReal :=
  ∑ c : Fin 4096, term x A B t3 w n c

/-- The layer's result: the logistic function of score plus bias, one value per sample. -/
def G (x : SX.Idx → EReal) (A B : SC.Idx → EReal) (t3 w : Fin 4096 → EReal) (b0 : EReal) : SO.Idx → EReal :=
  fun i => Ideal.logistic (score x A B t3 w ⟨(i 0).val, idx2_lt0 i⟩ + b0)

/-- A sum over the 4096 centres is the sum over 8 chunks of 512 consecutive centres. -/
theorem sum_chunks (f : Fin 4096 → EReal) :
    ∑ c : Fin 4096, f c = ∑ k : Fin 8, ∑ j : Fin 512, f ⟨512 * k.val + j.val, by omega⟩ := by
  rw [← Fintype.sum_prod_type' (f := fun (k : Fin 8) (j : Fin 512) => f ⟨512 * k.val + j.val, by omega⟩)]
  refine (Fintype.sum_equiv (finProdFinEquiv (m := 8) (n := 512)) _ _ (fun p => ?_)).symm
  refine congrArg f (Fin.ext ?_)
  show 512 * p.1.val + p.2.val = p.2.val + 512 * p.1.val
  omega

end Cert.Spec

end
-- ==== Proof.Payload.lean ====
/-
  The kernel's three stored values, read at an index over the extended reals.

  The accumulator is first filled with zero; on each chunk of 512 centres the kernel adds to the
  accumulator, at sample row `p`, the chunk's weighted sum of radial responses
      ∑ j, exp (−(∑ d, x[p,d]² · A[j,d] − 2 · ∑ d, x[p,d] · B[j,d] + t3[j])) · w[j];
  at the end it stores the logistic function of accumulator plus bias.
-/
import proofs.«181055_j16466904613581_1_alg».proof.Proof.Gen.KernelIdeal.Skeleton
import proofs.«181055_j16466904613581_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## The first store: the zero fill -/

/-- The value first stored to the accumulator is zero everywhere. -/
theorem pay1_apply (j : S1024x1.Idx) : k0_pay1 (F := Ideal) j = 0 := by
  unfold k0_pay1
  rw [shapeCast_self]
  exact Ideal.ofBits_zero_f32

/-! ## The last store: the logistic function of accumulator plus bias -/

/-- The value stored to the result at row `p` is the logistic function of the accumulator there plus the bias. -/
theorem pay3_apply (v9 : Vec Ideal S1024x1 .f32) (v10 : Vec Ideal S1x1 .f32) (p : Fin 1024) :
    k0_pay3 (F := Ideal) v9 v10 (ix2 p 0) = Ideal.logistic (v9 (ix2 p 0) + v10 (ix2 0 0)) := by
  unfold k0_pay3
  rw [shapeCast_self]
  show Ideal.logistic (v9 (ix2 p 0) + broadcastTo S1024x1 v10 broadcasts_S1x1_S1024x1 (ix2 p 0)) = _
  rw [broadcastTo_1b_ab_apply]

/-! ## The product of a block with a transposed block, at an index -/

/-- The left operand's row is the result's row. -/
theorem lhs_mm_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand's column is the contracted coordinate. -/
theorem lhs_mm_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- The right operand's row is the contracted coordinate. -/
theorem rhs_mm_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- The right operand's column is the result's column. -/
theorem rhs_mm_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A [1024,256] block times the transpose of a [512,256] block, into zero, at `(p, j)`: the sum over the 256
    features of the products of row `p` of the one with row `j` of the other. -/
theorem mm_apply {φ₁ φ₂ : FTy} (a : FVec Ideal S1024x256 φ₁) (b : FVec Ideal S512x256 φ₂)
    (h : S512x256.Transposes [1, 0] S256x512) (p : Fin 1024) (j : Fin 512) :
    matmul dot_S1024x256_S256x512_S1024x512_1_0_0_1_n_n none a (transpose S256x512 [1, 0] b h) (constant S1024x512 .f32 0x00000000#32) (ix2 p j)
      = ∑ d : Fin 256, a (ix2 p d) * b (ix2 j d) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p j) ((ValueIdx.contrEquiv1 dot_S1024x256_S256x512_S1024x512_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S1024x256_S256x512_S1024x512_1_0_0_1_n_n.rhsIdx (ix2 p j) ((ValueIdx.contrEquiv1 dot_S1024x256_S256x512_S1024x512_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er, transpose_ix2_apply]

/-! ## The middle store: the accumulator plus one chunk's weighted sum of radial responses -/

/-- The value the kernel sums over a chunk's centres, at sample row `p` and centre `j` of the chunk: the radial
    response `exp (−dist)` times the centre's weight, the scaled squared distance in its expanded form. The
    subtraction from zero is the negation on the extended reals. -/
theorem summand_apply (v0 : FVec Ideal S1024x256 .f32) (v19 v23 : FVec Ideal S512x256 .f32) (v27 v30 : FVec Ideal S1x512 .f32)
    (hlt : FTy.bits .bf16 < FTy.bits .f32) (ht : S512x256.Transposes [1, 0] S256x512) (hb : S1x512.Broadcasts S1024x512)
    (p : Fin 1024) (j : Fin 512) :
    mulf (exp (subf (broadcast S1024x512 (FloatOps.ofBits (F := Ideal) .f32 0x00000000#32))
        (addf
          (subf
            (matmul dot_S1024x256_S256x512_S1024x512_1_0_0_1_n_n none (truncf .bf16 (mulf v0 v0) hlt) (transpose S256x512 [1, 0] (truncf .bf16 v19 hlt) ht)
              (constant S1024x512 .f32 0x00000000#32))
            (mulf (broadcast S1024x512 (FloatOps.ofBits (F := Ideal) .f32 0x40000000#32))
              (matmul dot_S1024x256_S256x512_S1024x512_1_0_0_1_n_n none (truncf .bf16 v0 hlt) (transpose S256x512 [1, 0] (truncf .bf16 v23 hlt) ht)
                (constant S1024x512 .f32 0x00000000#32))))
          (broadcastTo S1024x512 v27 hb))))
      (broadcastTo S1024x512 v30 hb) (ix2 p j)
    = Ideal.exp (-((∑ d : Fin 256, (v0 (ix2 p d) * v0 (ix2 p d)) * v19 (ix2 j d))
          - Cert.Spec.two * (∑ d : Fin 256, v0 (ix2 p d) * v23 (ix2 j d)) + v27 (ix2 0 j))) * v30 (ix2 0 j) := by
  show Ideal.exp (Ideal.ofBits .f32 0x00000000#32
        - ((matmul dot_S1024x256_S256x512_S1024x512_1_0_0_1_n_n none (truncf .bf16 (mulf v0 v0) hlt) (transpose S256x512 [1, 0] (truncf .bf16 v19 hlt) ht)
              (constant S1024x512 .f32 0x00000000#32) (ix2 p j)
            - Ideal.ofBits .f32 0x40000000#32
              * matmul dot_S1024x256_S256x512_S1024x512_1_0_0_1_n_n none (truncf .bf16 v0 hlt) (transpose S256x512 [1, 0] (truncf .bf16 v23 hlt) ht)
                  (constant S1024x512 .f32 0x00000000#32) (ix2 p j))
          + broadcastTo S1024x512 v27 hb (ix2 p j)))
      * broadcastTo S1024x512 v30 hb (ix2 p j) = _
  rw [mm_apply, mm_apply, broadcastTo_1b_ab_apply, broadcastTo_1b_ab_apply, Ideal.ofBits_zero_f32, zero_sub]
  rfl

/-- The value stored to the accumulator at row `p` on one chunk: the accumulator there plus the sum, over the
    chunk's 512 centres, of the radial responses times the weights. -/
theorem pay2_apply (v0 : Vec Ideal S1024x256 .f32) (v19 v23 : Vec Ideal S512x256 .f32) (v27 v30 : Vec Ideal S1x512 .f32) (v47 : Vec Ideal S1024x1 .f32) (p : Fin 1024) :
    k0_pay2 (F := Ideal) v0 v19 v23 v27 v30 v47 (ix2 p 0)
      = v47 (ix2 p 0) + ∑ j : Fin 512, Ideal.exp (-((∑ d : Fin 256, (v0 (ix2 p d) * v0 (ix2 p d)) * v19 (ix2 j d)) - Cert.Spec.two * (∑ d : Fin 256, v0 (ix2 p d) * v23 (ix2 j d)) + v27 (ix2 0 j))) * v30 (ix2 0 j) := by
  unfold k0_pay2
  simp only [shapeCast_self]
  rw [addf_apply]
  refine congrArg (v47 (ix2 p 0) + ·) ?_
  -- the [1024] column of sums, viewed as [1024, 1], read at (p, 0) is the column at p
  refine (shapeCast_apply _ shapeCasts_S1024_S1024x1 (ix2 p 0) (ix1 p) ?_).trans ?_
  · rw [Shape.rowMajor_val_two, Shape.rowMajor_val_one]
    show p.val = p.val * 1 + 0
    omega
  -- the reduction over the chunk's axis is the sum over its 512 centres
  refine (Ideal.multiReduction_add_single _ _ reduces_S1024x512_S1024 _ _ (ix1 p)).trans ?_
  refine Finset.sum_congr rfl fun j _ => ?_
  have hl : reduces_S1024x512_S1024.lift (ix1 p) j = ix2 p j := funext fun a => Fin.ext (by
    match a with
    | ⟨0, _⟩ => rfl
    | ⟨1, _⟩ => rfl)
  rw [hl]
  exact summand_apply v0 v19 v23 v27 v30 _ _ _ p j

end Cert.KernelIdeal.Pay

end
-- ==== Proof.KValue.lean ====
/-
  The value of the kernel's result array, index by index, at the exact operations.

  At one grid point the accumulator column after `k` chunks holds, at row `p`, the sum of the
  first `k` chunks' weighted radial responses; after all 8 chunks that is the sum over all 4096
  centres (a sum over 4096 indices is the sum over 8 runs of 512 consecutive ones, in any
  grouping, addition on the extended reals being commutative and associative).  The block the
  point writes back is therefore the logistic function of the class score of rows
  `1024 t + p`, which is the specification's layer read through the point's block; the 16 blocks
  tile the result array.
-/
import proofs.«181055_j16466904613581_1_alg».proof.Proof.Gen.KernelIdeal.Value
import proofs.«181055_j16466904613581_1_alg».proof.Proof.KRun
import proofs.«181055_j16466904613581_1_alg».proof.Proof.KBlocks
import proofs.«181055_j16466904613581_1_alg».proof.Proof.Payload
import proofs.«181055_j16466904613581_1_alg».proof.Proof.Spec

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## One grid point -/

/-- One centre's weighted radial response for row `p` of a block of samples. -/
def T (x0 : Vec Ideal S1024x256 .f32) (x1 x2 : Vec Ideal S4096x256 .f32) (x3 x4 : Vec Ideal S1x4096 .f32)
    (p : Fin 1024) (c : Fin 4096) : EReal :=
  Ideal.exp (-((∑ d : Fin 256, (x0 (ix2 p d) * x0 (ix2 p d)) * x1 (ix2 c d))
      - Cert.Spec.two * (∑ d : Fin 256, x0 (ix2 p d) * x2 (ix2 c d)) + x3 (ix2 0 c))) * x4 (ix2 0 c)

/-- The same response over a chunk's own blocks: row `p` of the samples against centre `j` of the chunk. -/
def Tc (v0 : Vec Ideal S1024x256 .f32) (v19 v23 : Vec Ideal S512x256 .f32) (v27 v30 : Vec Ideal S1x512 .f32)
    (p : Fin 1024) (j : Fin 512) : EReal :=
  Ideal.exp (-((∑ d : Fin 256, (v0 (ix2 p d) * v0 (ix2 p d)) * v19 (ix2 j d))
      - Cert.Spec.two * (∑ d : Fin 256, v0 (ix2 p d) * v23 (ix2 j d)) + v27 (ix2 0 j))) * v30 (ix2 0 j)

/-- Centre `j` of chunk `k` is centre `512 k + j`. -/
theorem Tc_chunk (x0 : Vec Ideal S1024x256 .f32) (x1 x2 : Vec Ideal S4096x256 .f32) (x3 x4 : Vec Ideal S1x4096 .f32)
    (p : Fin 1024) (k : Fin k0_t1_loop.trips) (j : Fin 512) (hj : 512 * k.val + j.val < 4096) :
    Tc x0
        (View.ld x1 (Rect.unit (s := S4096x256) (k0_off1 k) S512x256.size (k0_off1_inb k)))
        (View.ld x2 (Rect.unit (s := S4096x256) (k0_off1 k) S512x256.size (k0_off1_inb k)))
        (View.ld x3 (Rect.unit (s := S1x4096) (k0_off2 k) S1x512.size (k0_off2_inb k)))
        (View.ld x4 (Rect.unit (s := S1x4096) (k0_off2 k) S1x512.size (k0_off2_inb k))) p j
      = T x0 x1 x2 x3 x4 p ⟨512 * k.val + j.val, hj⟩ := by
  unfold Tc T
  rw [KBlocks.ld_cols x3 k j hj, KBlocks.ld_cols x4 k j hj]
  have s1 : (∑ d : Fin 256, (x0 (ix2 p d) * x0 (ix2 p d))
        * View.ld x1 (Rect.unit (s := S4096x256) (k0_off1 k) S512x256.size (k0_off1_inb k)) (ix2 j d))
      = ∑ d : Fin 256, (x0 (ix2 p d) * x0 (ix2 p d)) * x1 (ix2 ⟨512 * k.val + j.val, hj⟩ d) :=
    Finset.sum_congr rfl fun d _ => congrArg ((x0 (ix2 p d) * x0 (ix2 p d)) * ·) (KBlocks.ld_rows x1 k j d hj)
  have s2 : (∑ d : Fin 256, x0 (ix2 p d)
        * View.ld x2 (Rect.unit (s := S4096x256) (k0_off1 k) S512x256.size (k0_off1_inb k)) (ix2 j d))
      = ∑ d : Fin 256, x0 (ix2 p d) * x2 (ix2 ⟨512 * k.val + j.val, hj⟩ d) :=
    Finset.sum_congr rfl fun d _ => congrArg (x0 (ix2 p d) * ·) (KBlocks.ld_rows x2 k j d hj)
  exact congrArg₂ (fun a b => Ideal.exp (-(a - Cert.Spec.two * b + x3 (ix2 0 ⟨512 * k.val + j.val, hj⟩)))
    * x4 (ix2 0 ⟨512 * k.val + j.val, hj⟩)) s1 s2

/-- The sum of chunk `k`'s 512 responses (zero past the last chunk). -/
def chunk (x0 : Vec Ideal S1024x256 .f32) (x1 x2 : Vec Ideal S4096x256 .f32) (x3 x4 : Vec Ideal S1x4096 .f32)
    (p : Fin 1024) (k : ℕ) : EReal :=
  if h : k < 8 then ∑ j : Fin 512, T x0 x1 x2 x3 x4 p ⟨512 * k + j.val, by omega⟩ else 0

/-- The accumulator after `k` chunks, at row `p`: the first `k` chunk sums added up. -/
theorem accum_apply (x0 : Vec Ideal S1024x256 .f32) (x1 x2 : Vec Ideal S4096x256 .f32) (x3 x4 : Vec Ideal S1x4096 .f32)
    (p : Fin 1024) (k : ℕ) (hk : k ≤ 8) :
    KRun.accum x0 x1 x2 x3 x4 k (ix2 p 0) = ∑ k' ∈ Finset.range k, chunk x0 x1 x2 x3 x4 p k' := by
  induction k with
  | zero =>
    rw [Finset.range_zero, Finset.sum_empty]
    exact Pay.pay1_apply _
  | succ k ih =>
    have h : k < 8 := hk
    have h' : k < k0_t1_loop.trips := by rw [KRun.trips_eq]; exact h
    rw [Finset.sum_range_succ, ← ih (Nat.le_of_lt h), KRun.accum, dif_pos h', Pay.pay2_apply]
    refine congrArg (KRun.accum x0 x1 x2 x3 x4 k (ix2 p 0) + ·) ?_
    rw [chunk, dif_pos h]
    refine Finset.sum_congr rfl fun j _ => ?_
    have hj : 512 * k + j.val < 4096 := by omega
    exact Tc_chunk x0 x1 x2 x3 x4 p ⟨k, h'⟩ j hj

/-- The block a point writes back, at row `p`: the logistic function of the sum over all centres
    plus the bias. -/
theorem body_value (x0 : Vec Ideal S1024x256 .f32) (x1 x2 : Vec Ideal S4096x256 .f32) (x3 x4 : Vec Ideal S1x4096 .f32)
    (x5 : Vec Ideal S1x1 .f32) (p : Fin 1024) :
    k0_pay3 (F := Ideal) (KRun.accum x0 x1 x2 x3 x4 k0_t1_loop.trips) x5 (ix2 p 0)
      = Ideal.logistic ((∑ c : Fin 4096, T x0 x1 x2 x3 x4 p c) + x5 (ix2 0 0)) := by
  rw [Pay.pay3_apply, KRun.trips_eq, accum_apply _ _ _ _ _ _ 8 le_rfl, Cert.Spec.sum_chunks, Finset.sum_range]
  refine congrArg (fun s => Ideal.logistic (s + x5 (ix2 0 0))) (Finset.sum_congr rfl fun k _ => ?_)
  rw [chunk, dif_pos k.isLt]

/-! ## The whole array -/

section Array

variable (m : (ℓ : Loc nD τ sig) → Buf (Elt Ideal) ℓ) (ρ : Dev nD → PrngReg)

/-- WHAT THE RESULT ARRAY ENDS HOLDING: the specification's layer of the samples, of the two
    factor arrays and the row sums the host operations compute from the centres and `σ`, of the
    weights and of the bias. -/
def Gk (c : Dev nD) : S16384x1.Idx → EReal :=
  Cert.Spec.G ((m ((c : Thread nD τ).loc main_arg0)) : S16384x256.Idx → EReal)
    (KBlocks.hostA ((m ((c : Thread nD τ).loc main_arg2)) : Vec Ideal S4096x256 .f32))
    (mulf ((m ((c : Thread nD τ).loc main_arg1)) : Vec Ideal S4096x256 .f32) (KBlocks.hostA ((m ((c : Thread nD τ).loc main_arg2)) : Vec Ideal S4096x256 .f32)))
    (fun c' => KBlocks.hostT ((m ((c : Thread nD τ).loc main_arg1)) : Vec Ideal S4096x256 .f32) ((m ((c : Thread nD τ).loc main_arg2)) : Vec Ideal S4096x256 .f32) (ix1 c'))
    (fun c' => ((m ((c : Thread nD τ).loc main_arg3)) : S1x4096.Idx → EReal) (ix2 0 c'))
    (((m ((c : Thread nD τ).loc main_arg4)) : S1.Idx → EReal) (ix1 0))

/-- The row of squared-centre sums laid out as [1, 4096], at column `c'`, is the sum for centre `c'`. -/
theorem row_apply (v : Vec Ideal S4096 .f32) (c' : Fin 4096) :
    shapeCast S1x4096 v shapeCasts_S4096_S1x4096 (ix2 0 c') = v (ix1 c') := by
  refine shapeCast_apply _ shapeCasts_S4096_S1x4096 (ix2 0 c') (ix1 c') ?_
  rw [Shape.rowMajor_val_two, Shape.rowMajor_val_one]
  show c'.val = 0 * 4096 + c'.val
  omega

/-- The bias laid out as [1, 1] is the bias. -/
theorem bias_apply (v : Vec Ideal S1 .f32) :
    shapeCast S1x1 v shapeCasts_S1_S1x1 (ix2 0 0) = v (ix1 0) := by
  refine shapeCast_apply _ shapeCasts_S1_S1x1 (ix2 0 0) (ix1 0) ?_
  rw [Shape.rowMajor_val_two, Shape.rowMajor_val_one]
  rfl

/-- Point `t`'s block, at its row `j`, is the layer at row `1024 t + j` of the result array. -/
theorem flushed_aux (c : Dev nD) (t : Fin cfg0.N) (j : S1024x1.Idx) :
    k0_pay3 (F := Ideal)
        (KRun.accum (iblk m c 0 t : Vec Ideal S1024x256 .f32)
          (KBlocks.hostA ((m ((c : Thread nD τ).loc main_arg2)) : Vec Ideal S4096x256 .f32))
          (mulf ((m ((c : Thread nD τ).loc main_arg1)) : Vec Ideal S4096x256 .f32) (KBlocks.hostA ((m ((c : Thread nD τ).loc main_arg2)) : Vec Ideal S4096x256 .f32)))
          (shapeCast S1x4096 (KBlocks.hostT ((m ((c : Thread nD τ).loc main_arg1)) : Vec Ideal S4096x256 .f32) ((m ((c : Thread nD τ).loc main_arg2)) : Vec Ideal S4096x256 .f32)) shapeCasts_S4096_S1x4096)
          ((m ((c : Thread nD τ).loc main_arg3)) : Vec Ideal S1x4096 .f32) k0_t1_loop.trips)
        (shapeCast S1x1 ((m ((c : Thread nD τ).loc main_arg4)) : Vec Ideal S1 .f32) shapeCasts_S1_S1x1) j
      = Gk m c (((cfg0.win 6).blk t).view.emb j) := by
  obtain ⟨p, z, rfl⟩ : ∃ (p : Fin 1024) (z : Fin 1), j = ix2 p z := ⟨j 0, j 1, eq_ix2 j⟩
  obtain rfl : z = 0 := Subsingleton.elim _ _
  obtain ⟨-, -, -, -, -, -, -, -, -, -, -, -, e0, -⟩ := KBlocks.idx_facts t
  have hN : cfg0.N = 16 := N_0
  have hn : 1024 * t.val + p.val < 16384 := by have := t.isLt; omega
  have hrow : (⟨((((cfg0.win 6).blk t).view.emb (ix2 p 0)) 0).val, idx2_lt0 _⟩ : Fin 16384) = ⟨1024 * t.val + p.val, hn⟩ :=
    Fin.ext (by show win0_6.index t (0 : Fin 2) * 1024 + 1 * p.val = 1024 * t.val + p.val; rw [e0]; omega)
  rw [body_value, bias_apply]
  unfold Gk Cert.Spec.G Cert.Spec.score
  rw [hrow]
  refine congrArg (fun s => Ideal.logistic (s + _)) (Finset.sum_congr rfl fun c' _ => ?_)
  unfold T Cert.Spec.term Cert.Spec.dist
  have hx : ∀ d : Fin 256, (iblk m c 0 t : Vec Ideal S1024x256 .f32) (ix2 p d)
      = ((m ((c : Thread nD τ).loc main_arg0)) : S16384x256.Idx → EReal) (ix2 ⟨1024 * t.val + p.val, hn⟩ d) := fun d =>
    (KBlocks.iblk0_apply m c t (ix2 p d) (ix2 ⟨1024 * t.val + p.val, hn⟩ d) rfl rfl).trans (congrFun (V_main_arg0 m c) _)
  simp only [hx]
  rw [row_apply]

/-- WHAT POINT `t` WRITES BACK is block `t` of the layer. -/
theorem flushed_eq (c : Dev nD) (t : Fin cfg0.N) :
    (dats m 0 c).flushed 6 t = ((cfg0.win 6).blk t).view.read (Elt Ideal) (Gk m c) := by
  rw [Cert.KernelIdeal.Value.flushed6_A, KRun.out_eq, KBlocks.iblk1_eq, KBlocks.iblk2_eq, KBlocks.iblk3_eq, KBlocks.iblk4_eq,
    KBlocks.iblk5_eq, KBlocks.V_v4, KBlocks.V_v5, KBlocks.V_v9, KBlocks.V_v10, V_main_arg3]
  funext j
  exact flushed_aux m c t j

/-- An index of the result array is in point `t`'s block iff its row is among the point's 1024. -/
theorem mem_blk (t : Fin cfg0.N) (i : S16384x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0).slice (win0_6.rect t)).set ↔ _
  rw [View.set_slice_whole, Rect.mem_set_unit]
  exact Iff.rfl

/-- The 16 blocks tile the result array: row `r` is in the block of point `r / 1024`. -/
theorem cover (i : S16384x1.Idx) :
    ∃ t : Fin cfg0.N, (cfg0.win 6).flush t = true ∧ i ∈ ((cfg0.win 6).blk t).view.set := by
  have hi0 : (i 0).val < 16384 := idx2_lt0 i
  have hi1 : (i 1).val < 1 := idx2_lt1 i
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := KBlocks.idx_facts t
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1 ≤ (i 1).val ∧ (i 1).val < win0_6.index t (1 : Fin 2) * 1 + 1; rw [e1]; omega

/-- THE RESULT ARRAY after the run is the layer. -/
theorem final (c : Dev nD) : (dats m 0 c).arrAt 6 cfg0.N = Gk m c :=
  (dats m 0 c).arrAt_eq_of_cover 6 (Gk m c) (fun t _ => flushed_eq m c t) cover

/-- The idealized kernel's run: every weakly fair execution ends with the result array at the
    layer of the arguments, the arguments unchanged. -/
theorem run : θ_run defs (onTc (τ := τ) (main (F := Ideal))) ⟨m, fun _ => 0, ρ⟩ fun r => ∀ c : Dev nD,
      r.2.mem ((c : Thread nD τ).loc main_v0) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Array

end Cert.KernelIdeal.KValue

end
-- ==== Proof.RefValue.lean ====
/-
  The reference program's result, read index by index, is the specification.

  The reference computes, for each sample n and centre c,
      Σ_d x[n,d]² · A[c,d]  −  2 · Σ_d x[n,d] · B[c,d]  +  t3 c,
  negates and exponentiates it, contracts with the weights over the 4096 centres, adds the bias and
  takes 1 / (1 + exp (−·)).  Read at an index, each of these stages is the corresponding clause of
  the specification: the two contractions are sums over the feature coordinate at the indices
  (n, d) and (c, d), the row sum t3 is read through two broadcasts at the centre c, and the final
  quotient is the logistic function by its definition.  The arrays A, B and t3 stay folded.
-/
import proofs.«181055_j16466904613581_1_alg».proof.Proof.Gen.ReferenceIdeal.Read
import proofs.«181055_j16466904613581_1_alg».proof.Proof.Spec
import Idealize.ShloMosaic.Lib.IdealHost

noncomputable section

namespace Cert.RefValue

open Idealize.ShloMosaic Idealize.ShloMosaic.ValueIdx Cert.ReferenceIdeal Cert.ReferenceIdeal.Read

/-! ## The generated index functions at an index given by its coordinates -/

theorem lidx_v6 (n : Fin 16384) (c : Fin 4096) (k : Fin 256) : lidx_main_v6 (ix2 n c) k = ix2 n k :=
  funext fun a => Fin.ext (by match a with | ⟨0, _⟩ => rfl | ⟨1, _⟩ => rfl)
theorem ridx_v6 (n : Fin 16384) (c : Fin 4096) (k : Fin 256) : ridx_main_v6 (ix2 n c) k = ix2 c k :=
  funext fun a => Fin.ext (by match a with | ⟨0, _⟩ => rfl | ⟨1, _⟩ => rfl)
theorem lidx_v8 (n : Fin 16384) (c : Fin 4096) (k : Fin 256) : lidx_main_v8 (ix2 n c) k = ix2 n k :=
  funext fun a => Fin.ext (by match a with | ⟨0, _⟩ => rfl | ⟨1, _⟩ => rfl)
theorem ridx_v8 (n : Fin 16384) (c : Fin 4096) (k : Fin 256) : ridx_main_v8 (ix2 n c) k = ix2 c k :=
  funext fun a => Fin.ext (by match a with | ⟨0, _⟩ => rfl | ⟨1, _⟩ => rfl)
theorem idx_v15_v16 (n : Fin 16384) (c : Fin 4096) : idx_main_v15 (idx_main_v16 (ix2 n c)) = ix1 c :=
  funext fun a => Fin.ext (by match a with | ⟨0, _⟩ => rfl)
theorem lidx_v21 (n : Fin 16384) (z : Fin 1) (k : Fin 4096) : lidx_main_v21 (ix2 n z) k = ix2 n k :=
  funext fun a => Fin.ext (by match a with | ⟨0, _⟩ => rfl | ⟨1, _⟩ => rfl)
theorem idx_v20_v21 (n : Fin 16384) (z : Fin 1) (k : Fin 4096) :
    idx_main_v20 (ridx_main_v21 (ix2 n z) k) = ix2 0 k :=
  funext fun a => Fin.ext (by match a with | ⟨0, _⟩ => exact Fin.val_eq_zero z | ⟨1, _⟩ => rfl)
theorem idx_v22_v23 (n : Fin 16384) (z : Fin 1) : idx_main_v22 (idx_main_v23 (ix2 n z)) = ix1 0 :=
  funext fun a => Fin.ext (by match a with | ⟨0, _⟩ => rfl)

/-! ## The scaled squared distance -/

/-- The reference's array before the negation, at sample n and centre c, is the expanded distance. -/
theorem v17_ix (x0 : (⟨S16384x256, .f32⟩ : BufTy).Contents (Elt Ideal)) (x1 x2 : (⟨S4096x256, .f32⟩ : BufTy).Contents (Elt Ideal))
    (n : Fin 16384) (c : Fin 4096) :
    val_main_v17 (F := Ideal) x0 x1 x2 (ix2 n c)
      = Cert.Spec.dist x0 (val_main_v4 (F := Ideal) x2) (val_main_v7 (F := Ideal) x1 x2)
          (fun c => val_main_v14 (F := Ideal) x1 x2 (ix1 c)) n c := by
  rw [val_main_v17_apply, val_main_v11_apply, val_main_v6_apply, val_main_v10_apply, val_main_v9_apply,
    val_main_cst_1_apply, val_main_v8_apply, val_main_v16_apply, val_main_v15_apply, idx_v15_v16]
  simp only [val_main_v5_apply, lidx_v6, ridx_v6, lidx_v8, ridx_v8, Ideal.mulf_def, Ideal.addf_def, Ideal.subf_def,
    Ideal.ofBits_def]
  rfl

/-! ## The radial response, the score and the logistic function -/

/-- The reference's radial response at sample n and centre c. -/
theorem v19_ix (x0 : (⟨S16384x256, .f32⟩ : BufTy).Contents (Elt Ideal)) (x1 x2 : (⟨S4096x256, .f32⟩ : BufTy).Contents (Elt Ideal))
    (n : Fin 16384) (c : Fin 4096) :
    val_main_v19 (F := Ideal) x0 x1 x2 (ix2 n c)
      = Ideal.exp (-(Cert.Spec.dist x0 (val_main_v4 (F := Ideal) x2) (val_main_v7 (F := Ideal) x1 x2)
          (fun c => val_main_v14 (F := Ideal) x1 x2 (ix1 c)) n c)) := by
  rw [val_main_v19_apply, val_main_v18_apply, v17_ix]
  simp only [Ideal.hostUnary_exp_def, Ideal.hostNegf_def, Ideal.negf_def]

/-- The reference program's result is the specification's layer, the arrays A, B and t3 being the
    reference's own host chain. -/
theorem ref_eq (x0 : (⟨S16384x256, .f32⟩ : BufTy).Contents (Elt Ideal)) (x1 x2 : (⟨S4096x256, .f32⟩ : BufTy).Contents (Elt Ideal))
    (x3 : (⟨S1x4096, .f32⟩ : BufTy).Contents (Elt Ideal)) (x4 : (⟨S1, .f32⟩ : BufTy).Contents (Elt Ideal)) :
    val_main_v30 (F := Ideal) x0 x1 x2 x3 x4
      = Cert.Spec.G x0 (val_main_v4 (F := Ideal) x2) (val_main_v7 (F := Ideal) x1 x2)
          (fun c => val_main_v14 (F := Ideal) x1 x2 (ix1 c)) (fun c => x3 (ix2 0 c)) (x4 (ix1 0)) := by
  funext i
  obtain ⟨n, z, rfl⟩ : ∃ (n : Fin 16384) (z : Fin 1), i = ix2 n z := ⟨i 0, i 1, eq_ix2 i⟩
  rw [val_main_v30_apply, val_main_v29_apply, val_main_cst_4_apply, val_main_v28_apply, val_main_v27_apply,
    val_main_cst_3_apply, val_main_v26_apply, val_main_v25_apply, val_main_v24_apply, val_main_v21_apply,
    val_main_v23_apply, val_main_v22_apply, idx_v22_v23]
  simp only [lidx_v21, v19_ix, val_main_v20_apply, idx_v20_v21, Ideal.hostDivf_def, Ideal.addf_def,
    Ideal.hostUnary_exp_def, Ideal.hostNegf_def, Ideal.negf_def, Ideal.ofBits_def, Ideal.ofBits_one_f32]
  rfl

end Cert.RefValue

end
-- ==== Proof.lean ====
/-
  The radial-basis scoring layer: the kernel against its jnp reference, over the extended reals.

  Both programs first form, by the same host operations, `A = 1 / (2 σ σ)`, `B = centres · A` and
  the row sums `t3 c = Σ_d centres[c,d]² · A[c,d]`.  The reference then computes, for every sample
  `n` and centre `c`, `Σ_d x[n,d]² A[c,d] − 2 Σ_d x[n,d] B[c,d] + t3 c`, exponentiates its negative,
  contracts with the weights over the 4096 centres, adds the bias and applies `1 / (1 + exp (−·))`.
  The kernel handles 1024 samples per grid point; it sweeps the centres in 8 chunks of 512, adds
  each chunk's weighted sum of `exp (0 − ·)` of the same expression to a column accumulator that
  starts at zero, and stores the logistic function of accumulator plus bias.

  At the exact operations the two agree on every input, finite or not: the format changes are
  the identity; a product into a zero accumulator and the host's contraction are the same sum;
  `0 − y` is `−y`; the sum over 4096 centres is the sum of the 8 chunk sums (addition on the
  extended reals is commutative and associative, so no finiteness is used); and the logistic
  function is by definition the quotient the reference spells out.  The kernel's side reads the
  run's stores back (the accumulator's recurrence over the chunks, then the 16 blocks tiling the
  result); the reference's side reads its operations one at a time; both arrive at the one
  function `Cert.Spec.G` of the argument arrays.  The ideal pass rewrote nothing, so the
  idealization claim is trivial; the three frames are the generated runs.
-/
import proofs.«181055_j16466904613581_1_alg».proof.Defs
import proofs.«181055_j16466904613581_1_alg».proof.Proof.Gen.Kernel
import proofs.«181055_j16466904613581_1_alg».proof.Proof.Gen.Kernel.Skeleton
import proofs.«181055_j16466904613581_1_alg».proof.Proof.Gen.Kernel.Loops
import proofs.«181055_j16466904613581_1_alg».proof.Proof.Gen.Kernel.Launch
import proofs.«181055_j16466904613581_1_alg».proof.Proof.Gen.Kernel.Points
import proofs.«181055_j16466904613581_1_alg».proof.Proof.Gen.Kernel.Frame
import proofs.«181055_j16466904613581_1_alg».proof.Proof.Gen.KernelIdeal
import proofs.«181055_j16466904613581_1_alg».proof.Proof.Gen.KernelIdeal.Skeleton
import proofs.«181055_j16466904613581_1_alg».proof.Proof.Gen.KernelIdeal.Loops
import proofs.«181055_j16466904613581_1_alg».proof.Proof.Gen.KernelIdeal.Launch
import proofs.«181055_j16466904613581_1_alg».proof.Proof.Gen.KernelIdeal.Points
import proofs.«181055_j16466904613581_1_alg».proof.Proof.Gen.KernelIdeal.Frame
import proofs.«181055_j16466904613581_1_alg».proof.Proof.Gen.ReferenceIdeal
import proofs.«181055_j16466904613581_1_alg».proof.Proof.Gen.Pre_finite_inputs
import proofs.«181055_j16466904613581_1_alg».proof.Proof.Gen.KernelIdeal.Value
import proofs.«181055_j16466904613581_1_alg».proof.Proof.Gen.ReferenceIdeal.Run
import proofs.«181055_j16466904613581_1_alg».proof.Proof.Gen.ReferenceIdeal.Read
import Idealize.ShloMosaic.Adequacy
import Idealize.ShloMosaic.Init
import proofs.«181055_j16466904613581_1_alg».proof.Proof.KValue
import proofs.«181055_j16466904613581_1_alg».proof.Proof.RefValue

noncomputable section

namespace Cert.Proof

open Idealize.ShloMosaic Idealize.SL.Sem Idealize.ShloMosaic.ValueIdx

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The two programs' host chains are the same terms -/

theorem hostA_eq (σ : Vec Ideal Cert.KernelIdeal.S4096x256 .f32) :
    Cert.KernelIdeal.KBlocks.hostA σ = Cert.ReferenceIdeal.Read.val_main_v4 (F := Ideal) σ := rfl

theorem hostB_eq (ctr σ : Vec Ideal Cert.KernelIdeal.S4096x256 .f32) :
    mulf ctr (Cert.KernelIdeal.KBlocks.hostA σ) = Cert.ReferenceIdeal.Read.val_main_v7 (F := Ideal) ctr σ := rfl

theorem hostT_eq (ctr σ : Vec Ideal Cert.KernelIdeal.S4096x256 .f32) :
    Cert.KernelIdeal.KBlocks.hostT ctr σ = Cert.ReferenceIdeal.Read.val_main_v14 (F := Ideal) ctr σ := rfl

/-! ## The value claim -/

/-- From memories agreeing on the arguments both idealized programs end with the result array
    at the layer `Cert.Spec.G` of the arguments. -/
theorem algebraic : Cert.algebraic_KernelIdeal_ReferenceIdeal := by
  intro m ρ m' ρ' _ hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v30_eq, Cert.RefValue.ref_eq]
  show _ = Cert.KernelIdeal.KValue.Gk m c
  unfold Cert.KernelIdeal.KValue.Gk
  rw [hostB_eq, hostT_eq, hostA_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
